-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S1024 : Shape := ⟨1, ![1024]⟩
abbrev S768x1024 : Shape := ⟨2, ![768, 1024]⟩
abbrev S768 : Shape := ⟨1, ![768]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S768x1024 : S_.BroadcastsInDim S768x1024 (![] : Fin 0 → Fin S768x1024.rank)
  reducesTo_S768x1024_S_d0_1 : S768x1024.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x1024 1) : IVec S_ 1 :=
  let main_c_5 : IVec S_ 1 := constantI S_ 1 1#1
  let main_v17 : IVec S_ 1 := (fun x v => Host.reduce IntOp.andi x v reducesTo_S768x1024_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S32x1024x1024 .f32) (main_arg1 : FVec F S1024 .f32) (main_arg2 : FVec F S1024 .f32) (main_arg3 : FVec F S768x1024 .f32) (main_arg4 : FVec F S768 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S768x1024 .f32 := Host.absf main_arg3
  let main_cst_4 : FVec F S_ .f32 := constant S_ .f32 0x7F800000#32
  let main_v15 : FVec F S768x1024 .f32 := broadcastInDim S768x1024 ![] bcast_S_S768x1024 main_cst_4
  let main_v16 : IVec S768x1024 1 := cmpf .olt main_v14 main_v15
  fn_part1 (F := F) main_arg4 main_v13 main_v16
-- ==== Kernel.lean ====
abbrev S32x1024x1024 : Shape := ⟨3, ![32, 1024, 1024]⟩
abbrev S1024 : Shape := ⟨1, ![1024]⟩
abbrev S768x1024 : Shape := ⟨2, ![768, 1024]⟩
abbrev S768 : Shape := ⟨1, ![768]⟩
abbrev S32768x1024 : Shape := ⟨2, ![32768, 1024]⟩
abbrev S1x1024 : Shape := ⟨2, ![1, 1024]⟩
abbrev S1x768 : Shape := ⟨2, ![1, 768]⟩
abbrev S1024x768 : Shape := ⟨2, ![1024, 768]⟩
abbrev S32768x768 : Shape := ⟨2, ![32768, 768]⟩
abbrev S1024x1024 : Shape := ⟨2, ![1024, 1024]⟩
abbrev S1024x1 : Shape := ⟨2, ![1024, 1]⟩
abbrev S32x32x32x16x16x3 : Shape := ⟨6, ![32, 32, 32, 16, 16, 3]⟩
abbrev S32x3x32x16x32x16 : Shape := ⟨6, ![32, 3, 32, 16, 32, 16]⟩
abbrev S32x3x512x512 : Shape := ⟨4, ![32, 3, 512, 512]⟩

abbrev nBuf : Space → Nat
  | .hbm => 15
  | .vmem => 8
  | .smem => 0
  | _ => 0

abbrev bufTy : (tb : Table) → Fin (tcTables nBuf tb) → BufTy
  | .hbm, ⟨0, _⟩ => ⟨S32x1024x1024, .f32⟩
  | .hbm, ⟨1, _⟩ => ⟨S1024, .f32⟩
  | .hbm, ⟨2, _⟩ => ⟨S1024, .f32⟩
  | .hbm, ⟨3, _⟩ => ⟨S768x1024, .f32⟩
  | .hbm, ⟨4, _⟩ => ⟨S768, .f32⟩
  | .hbm, ⟨5, _⟩ => ⟨S32768x1024, .f32⟩
  | .hbm, ⟨6, _⟩ => ⟨S1x1024, .f32⟩
  | .hbm, ⟨7, _⟩ => ⟨S1x1024, .f32⟩
  | .hbm, ⟨8, _⟩ => ⟨S1x768, .f32⟩
  | .hbm, ⟨9, _⟩ => ⟨S1024x768, .f32⟩
  | .hbm, ⟨10, _⟩ => ⟨S1024x768, .bf16⟩
  | .hbm, ⟨11, _⟩ => ⟨S32768x768, .f32⟩
  | .hbm, ⟨12, _⟩ => ⟨S32x32x32x16x16x3, .f32⟩
  | .hbm, ⟨13, _⟩ => ⟨S32x3x32x16x32x16, .f32⟩
  | .hbm, ⟨14, _⟩ => ⟨S32x3x512x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x768, .bf16⟩
  | .local _ .vmem, ⟨5, _⟩ => ⟨S1x768, .f32⟩
  | .local _ .vmem, ⟨6, _⟩ => ⟨S1024x768, .f32⟩
  | .local _ .vmem, ⟨7, _⟩ => ⟨S1024x768, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x1024x1024_S32768x1024 : S32x1024x1024.ShapeCasts S32768x1024
  shapeCasts_S1024_S1x1024 : S1024.ShapeCasts S1x1024
  shapeCasts_S768_S1x768 : S768.ShapeCasts S1x768
  transposes_S768x1024_S1024x768_1_0 : S768x1024.Transposes [1, 0] S1024x768
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  shapeCasts_S32768x768_S32x32x32x16x16x3 : S32768x768.ShapeCasts S32x32x32x16x16x3
  transposes_S32x32x32x16x16x3_S32x3x32x16x32x16_0_5_1_3_2_4 : S32x32x32x16x16x3.Transposes [0, 5, 1, 3, 2, 4] S32x3x32x16x32x16
  shapeCasts_S32x3x32x16x32x16_S32x3x512x512 : S32x3x32x16x32x16.ShapeCasts S32x3x512x512
  dot_S1024x1024_S1024x768_S1024x768_1_0_0_1_n_n_wf : DotDims.WF S1024x1024 S1024x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S1024x768.size a
  hwx0_3 : ∀ i : grid0.Coords, EltTy.bits .bf16 = 32 ∨ (Rect.block (s := S1024x768) S1024x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x768.size a ≤ S32768x768.size a
  hwx0_5 : ∀ i : grid0.Coords, EltTy.bits .f32 = 32 ∨ (Rect.block (s := S32768x768) S1024x768.size (cc0_transform_5 i) (hinb0_5 i)).WholeWords (EltTy.packing .f32)

variable [Facts₀]

def dot_S1024x1024_S1024x768_S1024x768_1_0_0_1_n_n : DotDims S1024x1024 S1024x768 S1024x768 where
  lhsContracting := [1]
  rhsContracting := [0]
  lhsNonContracting := [0]
  rhsNonContracting := [1]
  lhsBatch := []
  rhsBatch := []
  wf := dot_S1024x1024_S1024x768_S1024x768_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S1024 : Shape := ⟨1, ![1024]⟩
abbrev S768x1024 : Shape := ⟨2, ![768, 1024]⟩
abbrev S768 : Shape := ⟨1, ![768]⟩
abbrev S_ : Shape := ⟨0, ![]⟩
abbrev S32x1024 : Shape := ⟨2, ![32, 1024]⟩
abbrev S32x1024x1 : Shape := ⟨3, ![32, 1024, 1]⟩
abbrev S1x1x1024 : Shape := ⟨3, ![1, 1, 1024]⟩
abbrev S32x1024x768 : Shape := ⟨3, ![32, 1024, 768]⟩
abbrev S1x1x768 : Shape := ⟨3, ![1, 1, 768]⟩
abbrev S32x32x32x16x16x3 : Shape := ⟨6, ![32, 32, 32, 16, 16, 3]⟩
abbrev S32x3x32x16x32x16 : Shape := ⟨6, ![32, 3, 32, 16, 32, 16]⟩
abbrev S32x3x512x512 : Shape := ⟨4, ![32, 3, 512, 512]⟩

abbrev nBuf : Space → Nat
  | .hbm => 50
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S1024, .f32⟩
  | .hbm, ⟨2, _⟩ => ⟨S1024, .f32⟩
  | .hbm, ⟨3, _⟩ => ⟨S768x1024, .f32⟩
  | .hbm, ⟨4, _⟩ => ⟨S768, .f32⟩
  | .hbm, ⟨5, _⟩ => ⟨S_, .f32⟩
  | .hbm, ⟨6, _⟩ => ⟨S32x1024, .f32⟩
  | .hbm, ⟨7, _⟩ => ⟨S32x1024x1, .f32⟩
  | .hbm, ⟨8, _⟩ => ⟨S_, .f32⟩
  | .hbm, ⟨9, _⟩ => ⟨S32x1024x1, .f32⟩
  | .hbm, ⟨10, _⟩ => ⟨S32x1024x1, .f32⟩
  | .hbm, ⟨11, _⟩ => ⟨S32x1024x1024, .f32⟩
  | .hbm, ⟨12, _⟩ => ⟨S32x1024x1024, .f32⟩
  | .hbm, ⟨13, _⟩ => ⟨S32x1024x1024, .f32⟩
  | .hbm, ⟨14, _⟩ => ⟨S_, .f32⟩
  | .hbm, ⟨15, _⟩ => ⟨S32x1024, .f32⟩
  | .hbm, ⟨16, _⟩ => ⟨S32x1024x1, .f32⟩
  | .hbm, ⟨17, _⟩ => ⟨S_, .f32⟩
  | .hbm, ⟨18, _⟩ => ⟨S32x1024x1, .f32⟩
  | .hbm, ⟨19, _⟩ => ⟨S32x1024x1, .f32⟩
  | .hbm, ⟨20, _⟩ => ⟨S32x1024x1024, .f32⟩
  | .hbm, ⟨21, _⟩ => ⟨S32x1024x1024, .f32⟩
  | .hbm, ⟨22, _⟩ => ⟨S_, .f32⟩
  | .hbm, ⟨23, _⟩ => ⟨S32x1024x1, .f32⟩
  | .hbm, ⟨24, _⟩ => ⟨S32x1024x1, .f32⟩
  | .hbm, ⟨25, _⟩ => ⟨S32x1024x1, .f32⟩
  | .hbm, ⟨26, _⟩ => ⟨S32x1024x1024, .f32⟩
  | .hbm, ⟨27, _⟩ => ⟨S32x1024x1024, .f32⟩
  | .hbm, ⟨28, _⟩ => ⟨S1x1x1024, .f32⟩
  | .hbm, ⟨29, _⟩ => ⟨S32x1024x1024, .f32⟩
  | .hbm, ⟨30, _⟩ => ⟨S32x1024x1024, .f32⟩
  | .hbm, ⟨31, _⟩ => ⟨S1x1x1024, .f32⟩
  | .hbm, ⟨32, _⟩ => ⟨S32x1024x1024, .f32⟩
  | .hbm, ⟨33, _⟩ => ⟨S32x1024x1024, .f32⟩
  | .hbm, ⟨34, _⟩ => ⟨S32x1024x1024, .f32⟩
  | .hbm, ⟨35, _⟩ => ⟨S32x1024x1024, .f32⟩
  | .hbm, ⟨36, _⟩ => ⟨S_, .f32⟩
  | .hbm, ⟨37, _⟩ => ⟨S32x1024x1024, .f32⟩
  | .hbm, ⟨38, _⟩ => ⟨S32x1024x1024, .f32⟩
  | .hbm, ⟨39, _⟩ => ⟨S_, .f32⟩
  | .hbm, ⟨40, _⟩ => ⟨S32x1024x1024, .f32⟩
  | .hbm, ⟨41, _⟩ => ⟨S32x1024x1024, .f32⟩
  | .hbm, ⟨42, _⟩ => ⟨S32x1024x1024, .f32⟩
  | .hbm, ⟨43, _⟩ => ⟨S32x1024x768, .f32⟩
  | .hbm, ⟨44, _⟩ => ⟨S1x1x768, .f32⟩
  | .hbm, ⟨45, _⟩ => ⟨S32x1024x768, .f32⟩
  | .hbm, ⟨46, _⟩ => ⟨S32x1024x768, .f32⟩
  | .hbm, ⟨47, _⟩ => ⟨S32x32x32x16x16x3, .f32⟩
  | .hbm, ⟨48, _⟩ => ⟨S32x3x32x16x32x16, .f32⟩
  | .hbm, ⟨49, _⟩ => ⟨S32x3x512x512, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  reducesTo_S32x1024x1024_S32x1024_d2 : S32x1024x1024.ReducesTo [2] S32x1024
  h_S_ : 0 < S_.numel
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024x1_S32x1024x1024_0_1_2 : S32x1024x1.BroadcastsInDim S32x1024x1024 (![0, 1, 2] : Fin 3 → Fin S32x1024x1024.rank)
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  bcast_S_S32x1024x1024 : S_.BroadcastsInDim S32x1024x1024 (![] : Fin 0 → Fin S32x1024x1024.rank)
  bcast_S768_S1x1x768_2 : S768.BroadcastsInDim S1x1x768 (![2] : Fin 1 → Fin S1x1x768.rank)
  bcast_S1x1x768_S32x1024x768_0_1_2 : S1x1x768.BroadcastsInDim S32x1024x768 (![0, 1, 2] : Fin 3 → Fin S32x1024x768.rank)
  shapeCasts_S32x1024x768_S32x32x32x16x16x3 : S32x1024x768.ShapeCasts S32x32x32x16x16x3
  transposes_S32x32x32x16x16x3_S32x3x32x16x32x16_0_5_1_3_2_4 : S32x32x32x16x16x3.Transposes [0, 5, 1, 3, 2, 4] S32x3x32x16x32x16
  shapeCasts_S32x3x32x16x32x16_S32x3x512x512 : S32x3x32x16x32x16.ShapeCasts S32x3x512x512
  dot_S32x1024x1024_S768x1024_S32x1024x768_2_1_01_0_n_n_wf : DotDims.WF S32x1024x1024 S768x1024 S32x1024x768 [2] [1] [0, 1] [0] [] []

variable [Facts₀]

def dot_S32x1024x1024_S768x1024_S32x1024x768_2_1_01_0_n_n : DotDims S32x1024x1024 S768x1024 S32x1024x768 where
  lhsContracting := [2]
  rhsContracting := [1]
  lhsNonContracting := [0, 1]
  rhsNonContracting := [0]
  lhsBatch := []
  rhsBatch := []
  wf := dot_S32x1024x1024_S768x1024_S32x1024x768_2_1_01_0_n_n_wf

class Facts : Prop extends Facts₀ where

variable [Facts]
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Spec.lean ====
/-
  What both programs compute, one output element at a time, on the extended reals.

  A token is a row of 1024 numbers. It is centred by its mean, scaled by the reciprocal square root of its variance
  plus a small offset, then by a per-coordinate weight and shift; each coordinate h of the result is gated to
  h * logistic h; the gated row is contracted with a row of the projection matrix and a bias is added. The output
  element (b, n, o) is this number for token (b, n) and matrix row o.
-/
import Idealize.ShloMosaic.PureOps.Ideal.Laws
import Idealize.ShloMosaic.Lib.ValueIdx

noncomputable section

open scoped BigOperators

namespace PatchProj

open Idealize.ShloMosaic Idealize.ShloMosaic.ValueIdx

/-- The row length 1024, as the float both programs divide by. -/
abbrev rowLen : EReal := Ideal.ofBits .f32 0x44800000#32
/-- The offset added to the variance, as the float both programs add. -/
abbrev varEps : EReal := Ideal.ofBits .f32 0x3727C5AC#32

/-- The mean of a row: its sum over the row length. -/
def rowMean (row : Fin 1024 → EReal) : EReal := Ideal.div (∑ k : Fin 1024, row k) rowLen

/-- The variance of a row: the mean of the squared deviations from the row's mean. -/
def rowVar (row : Fin 1024 → EReal) : EReal :=
  Ideal.div (∑ k : Fin 1024, (row k - rowMean row) * (row k - rowMean row)) rowLen

/-- Coordinate d of the normalised row, weighted and shifted. -/
def affine (row lw lb : Fin 1024 → EReal) (d : Fin 1024) : EReal :=
  (row d - rowMean row) * Ideal.rsqrt (rowVar row + varEps) * lw d + lb d

/-- The gate h * logistic h applied to that coordinate. -/
def gated (row lw lb : Fin 1024 → EReal) (d : Fin 1024) : EReal :=
  affine row lw lb d * Ideal.logistic (affine row lw lb d)

/-- The gated row contracted with a weight row, plus a bias. -/
def projected (row lw lb w : Fin 1024 → EReal) (bias : EReal) : EReal :=
  (∑ d : Fin 1024, gated row lw lb d * w d) + bias

/-- The projected tokens: element (b, n, o) is token (b, n) against matrix row o and bias o. -/
def tokens (x : (⟨3, ![32, 1024, 1024]⟩ : Shape).Idx → EReal) (lw lb : (⟨1, ![1024]⟩ : Shape).Idx → EReal)
    (W : (⟨2, ![768, 1024]⟩ : Shape).Idx → EReal) (b : (⟨1, ![768]⟩ : Shape).Idx → EReal) :
    (⟨3, ![32, 1024, 768]⟩ : Shape).Idx → EReal :=
  fun i => projected (fun d => x (ix3 (i 0) (i 1) d)) (fun d => lw (ix1 d)) (fun d => lb (ix1 d))
    (fun d => W (ix2 (i 2) d)) (b (ix1 (i 2)))

/-- The float pattern of 1.0 denotes the real 1. -/
theorem one_f32 : Ideal.ofBits .f32 0x3F800000#32 = 1 := IdealRules.sign_bit.ideal_onePat .f32

/-- The logistic function written out with the float 1.0, as a host program spells it, is the logistic function. -/
theorem logistic_spelt (h : EReal) :
    Ideal.div (Ideal.ofBits .f32 0x3F800000#32) (Ideal.ofBits .f32 0x3F800000#32 + Ideal.exp (-h)) = Ideal.logistic h := by
  rw [one_f32]; rfl

end PatchProj

end
-- ==== Proof.KernelRow.lean ====
/-
  The kernel body's stored value, read at (r, o), is the projected token of row r of its input block.

  The body sums each row of the block along the lanes and divides by the row length, subtracts the result from the
  row, sums the squares the same way, adds the offset, takes the reciprocal square root, multiplies by the weight row
  and adds the shift row, gates each coordinate by the logistic function, contracts the gated block with the
  1024 x 768 matrix block by a plain matrix product into a zero accumulator, and adds the bias row. Changing the float
  format of the gated block is the identity on the extended reals.
-/
import proofs.«116258_j15659450761472_1_alg».proof.Proof.Gen.KernelIdeal.Skeleton
import proofs.«116258_j15659450761472_1_alg».proof.Proof.LibPlainDot
import proofs.«116258_j15659450761472_1_alg».proof.Proof.Spec
import Idealize.ShloMosaic.Lib.Pipeline.Value
import Idealize.ShloMosaic.Lib.ValueIdx
import Idealize.ShloMosaic.PureOps.Ideal.Laws

noncomputable section

open scoped BigOperators

namespace PatchProj.Body

open Cert.KernelIdeal Cert.KernelIdeal.Gen Idealize.ShloMosaic Idealize.ShloMosaic.ValueIdx PatchProj

/-- Rank-2 multi-indices are equal when their coordinates are equal as naturals. -/
theorem idx2_ext {d : Fin 2 → Nat} (u v : (⟨2, d⟩ : Shape).Idx) (h0 : (u 0).val = (v 0).val) (h1 : (u 1).val = (v 1).val) : u = v :=
  funext fun a => Fin.ext (match a with | ⟨0, _⟩ => h0 | ⟨1, _⟩ => h1)

/-- A lane sum of a 1024 x 1024 block kept as a column: entry (r, 0) is the sum of row r. -/
theorem rowSum_apply (v : FVec Ideal S1024x1024 .f32) (hφ : FKind.Formats .f32)
    (hacc : (0x00000000#32 : BitVec FTy.f32.bits) = 0x00000000#32) (r : Fin 1024) (z : Fin 1) :
    shapeCast S1024x1 (multiReduction .add [1] S1024 v 0x00000000#32 reduces_S1024x1024_S1024 hφ hacc)
        shapeCasts_S1024_S1024x1 (ix2 r z)
      = ∑ k : Fin 1024, v (ix2 r k) := by
  refine (shapeCast_apply _ shapeCasts_S1024_S1024x1 (ix2 r z) (ix1 r) ?_).trans ?_
  · rw [Shape.rowMajor_val_one, Shape.rowMajor_val_two]
    have := z.isLt
    show r.val = r.val * 1 + z.val
    omega
  · refine (Ideal.multiReduction_add_single v 0x00000000#32 reduces_S1024x1024_S1024 hφ hacc (ix1 r)).trans ?_
    exact Finset.sum_congr rfl fun k _ => congrArg v (idx2_ext _ _ rfl rfl)

/-- The logistic function and the reciprocal square root act lane by lane. -/
theorem logistic_apply {s : Shape} (v : FVec Ideal s .f32) (i : s.Idx) : logistic v i = Ideal.logistic (v i) := rfl
theorem rsqrt_apply {s : Shape} (v : FVec Ideal s .f32) (i : s.Idx) : rsqrt v i = Ideal.rsqrt (v i) := rfl

/-- A column broadcast along the lanes: entry (r, κ) is the column's entry (r, 0). -/
theorem colBcast_apply (u : FVec Ideal S1024x1 .f32) (r κ : Fin 1024) :
    broadcastTo S1024x1024 u broadcasts_S1024x1_S1024x1024 (ix2 r κ) = u (ix2 r (0 : Fin 1)) :=
  broadcastTo_apply u broadcasts_S1024x1_S1024x1024 (ix2 r κ) (ix2 r (0 : Fin 1)) fun a => match a with
    | ⟨0, _⟩ => by show r.val = if (1024 : Nat) = 1 then 0 else r.val; rw [if_neg (by decide)]
    | ⟨1, _⟩ => by show 0 = if (1 : Nat) = 1 then 0 else κ.val; rw [if_pos rfl]

/-- A row broadcast down the rows: entry (r, κ) is the row's entry (0, κ). -/
theorem rowBcast_apply (u : FVec Ideal S1x1024 .f32) (r κ : Fin 1024) :
    broadcastTo S1024x1024 u broadcasts_S1x1024_S1024x1024 (ix2 r κ) = u (ix2 (0 : Fin 1) κ) :=
  broadcastTo_apply u broadcasts_S1x1024_S1024x1024 (ix2 r κ) (ix2 (0 : Fin 1) κ) fun a => match a with
    | ⟨0, _⟩ => by show 0 = if (1 : Nat) = 1 then 0 else r.val; rw [if_pos rfl]
    | ⟨1, _⟩ => by show κ.val = if (1024 : Nat) = 1 then 0 else κ.val; rw [if_neg (by decide)]

/-- The bias row broadcast down the rows. -/
theorem biasBcast_apply (u : FVec Ideal S1x768 .f32) (r : Fin 1024) (o : Fin 768) :
    broadcastTo S1024x768 u broadcasts_S1x768_S1024x768 (ix2 r o) = u (ix2 (0 : Fin 1) o) :=
  broadcastTo_apply u broadcasts_S1x768_S1024x768 (ix2 r o) (ix2 (0 : Fin 1) o) fun a => match a with
    | ⟨0, _⟩ => by show 0 = if (1 : Nat) = 1 then 0 else r.val; rw [if_pos rfl]
    | ⟨1, _⟩ => by show o.val = if (768 : Nat) = 1 then 0 else o.val; rw [if_neg (by decide)]

/-- The body's matrix product has plain dimension numbers. -/
theorem dot_plain : PlainDot.IsPlain dot_S1024x1024_S1024x768_S1024x768_1_0_0_1_n_n := ⟨rfl, rfl, rfl, rfl, rfl, rfl⟩

/-- The stored value at (r, o): row r of the block, normalised, gated and projected on column o of the matrix block. -/
theorem payload_apply (x0 : FVec Ideal S1024x1024 .f32) (x1 x2 : FVec Ideal S1x1024 .f32) (x3 : FVec Ideal S1024x768 .bf16)
    (x4 : FVec Ideal S1x768 .f32) (r : Fin 1024) (o : Fin 768) :
    k0_pay1 (F := Ideal) x0 x1 x2 x3 x4 (ix2 r o)
      = projected (fun d => x0 (ix2 r d)) (fun d => x1 (ix2 (0 : Fin 1) d)) (fun d => x2 (ix2 (0 : Fin 1) d))
          (fun d => x3 (ix2 d o)) (x4 (ix2 (0 : Fin 1) o)) := by
  unfold k0_pay1
  simp only [addf_apply, biasBcast_apply, shapeCast_self, PlainDot.matmul_zero_plain _ dot_plain, truncf_apply, mulf_apply,
    logistic_apply, rsqrt_apply, subf_apply, divf_apply, colBcast_apply, rowBcast_apply, rowSum_apply _ (Or.inl rfl) (@Eq.refl (BitVec FTy.f32.bits) 0x00000000#32), broadcast_apply]
  rfl

end PatchProj.Body

end
-- ==== Proof.KernelBlocks.lean ====
/-
  The kernel's result array after the run is the projected tokens, laid out as 32768 rows of 768.

  The grid has 32 points; point t works on rows 1024 t .. 1024 t + 1023 of the flattened input, which are exactly
  the tokens of batch entry t, and writes the same rows of the result. The weight, shift, matrix and bias blocks are
  the whole arrays at every point. The matrix the kernel sees is the transpose of the projection matrix (its change
  of float format is the identity on the extended reals), so column o of the block is row o of the matrix.
-/
import proofs.«116258_j15659450761472_1_alg».proof.Proof.Gen.KernelIdeal.Frame
import proofs.«116258_j15659450761472_1_alg».proof.Proof.KernelRow
import Idealize.ShloMosaic.Lib.StableHlo.Run

set_option maxRecDepth 16384

noncomputable section

open scoped BigOperators

namespace PatchProj.Kernel

open Cert.KernelIdeal Cert.KernelIdeal.Gen Idealize.ShloMosaic Idealize.ShloMosaic.TcCoe Idealize.ShloMosaic.ValueIdx
open Idealize.SL.Sem Idealize.ShloMosaic.StableHlo PatchProj

variable (m : (ℓ : Loc nD τ sig) → Buf (Elt Ideal) ℓ) (ρ : Dev nD → PrngReg)

/-- The shape of the projected tokens before they are flattened to rows. -/
abbrev S32x1024x768' : Shape := ⟨3, ![32, 1024, 768]⟩

/-! ## The arrays as the call finds them -/

/-- The flattened input. -/
theorem entry_x (c : Dev nD) : (V m c main_v0 : S32768x1024.Idx → EReal)
    = shapeCast S32768x1024 (m ((c : Thread nD τ).loc main_arg0)) shapeCasts_S32x1024x1024_S32768x1024 := by
  show StableHlo.after hostOps0 (fun b => m (c, b)) (Proc.devRef .tc main_v0) = _
  after_results <;> rfl

/-- The weight row. -/
theorem entry_lw (c : Dev nD) : (V m c main_v1 : S1x1024.Idx → EReal)
    = shapeCast S1x1024 (m ((c : Thread nD τ).loc main_arg1)) shapeCasts_S1024_S1x1024 := by
  show StableHlo.after hostOps0 (fun b => m (c, b)) (Proc.devRef .tc main_v1) = _
  after_results <;> rfl

/-- The shift row. -/
theorem entry_lb (c : Dev nD) : (V m c main_v2 : S1x1024.Idx → EReal)
    = shapeCast S1x1024 (m ((c : Thread nD τ).loc main_arg2)) shapeCasts_S1024_S1x1024 := by
  show StableHlo.after hostOps0 (fun b => m (c, b)) (Proc.devRef .tc main_v2) = _
  after_results <;> rfl

/-- The bias row. -/
theorem entry_bias (c : Dev nD) : (V m c main_v3 : S1x768.Idx → EReal)
    = shapeCast S1x768 (m ((c : Thread nD τ).loc main_arg4)) shapeCasts_S768_S1x768 := by
  show StableHlo.after hostOps0 (fun b => m (c, b)) (Proc.devRef .tc main_v3) = _
  after_results <;> rfl

/-- The transposed matrix, its float format changed. -/
theorem entry_wT (c : Dev nD) : (V m c main_v5 : S1024x768.Idx → EReal)
    = (truncf (F := Ideal) .bf16 (transpose S1024x768 [1, 0] (m ((c : Thread nD τ).loc main_arg3) : S768x1024.Idx → Ideal .f32)
        transposes_S768x1024_S1024x768_1_0) bitsLt_bf16_f32 : S1024x768.Idx → EReal) := by
  show StableHlo.after hostOps0 (fun b => m (c, b)) (Proc.devRef .tc main_v5) = _
  after_results <;> rfl

/-! ## The blocks -/

theorem zero_offsets : (![0, 0] : Fin 2 → Nat) = fun _ => 0 := funext fun a => by fin_cases a <;> rfl

/-- The printed index maps over the grid: the input and the result move one block of rows per point, the other
    operands stay at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A grid point as a batch entry. -/
abbrev batchOf (t : Fin cfg0.N) : Fin 32 := ⟨t.val, lt_of_lt_of_eq t.isLt N_0⟩

/-- Row p, coordinate d of the input block at point t is coordinate d of token (t, p). -/
theorem read_x (c : Dev nD) (t : Fin cfg0.N) (p d : Fin 1024) :
    (iblk m c 0 t : S1024x1024.Idx → EReal) (ix2 p d) = m ((c : Thread nD τ).loc main_arg0) (ix3 (batchOf t) p d) := by
  obtain ⟨e0, e1, -⟩ := index_facts t
  show (V m c main_v0 : S32768x1024.Idx → EReal) (((cfg0.win 0).blk t).view.emb (ix2 p d)) = _
  rw [entry_x]
  refine shapeCast_apply _ shapeCasts_S32x1024x1024_S32768x1024 _ (ix3 (batchOf t) p d) ?_
  rw [Shape.rowMajor_val_three, Shape.rowMajor_val_two]
  show (t.val * 1024 + p.val) * 1024 + d.val = (win0_0.index t (0 : Fin 2) * 1024 + 1 * p.val) * 1024 + (win0_0.index t (1 : Fin 2) * 1024 + 1 * d.val)
  rw [e0, e1]; omega

/-- The weight block at every point is the weight vector. -/
theorem read_lw (c : Dev nD) (t : Fin cfg0.N) (d : Fin 1024) :
    (iblk m c 1 t : S1x1024.Idx → EReal) (ix2 (0 : Fin 1) d) = m ((c : Thread nD τ).loc main_arg1) (ix1 d) := by
  obtain ⟨-, -, e0, e1, -⟩ := index_facts t
  show (V m c main_v1 : S1x1024.Idx → EReal) (((cfg0.win 1).blk t).view.emb (ix2 (0 : Fin 1) d)) = _
  rw [entry_lw]
  refine shapeCast_apply _ shapeCasts_S1024_S1x1024 _ (ix1 d) ?_
  rw [Shape.rowMajor_val_one, Shape.rowMajor_val_two]
  show d.val = (win0_1.index t (0 : Fin 2) * 1 + 1 * 0) * 1024 + (win0_1.index t (1 : Fin 2) * 1024 + 1 * d.val)
  rw [e0, e1]; omega

/-- The shift block at every point is the shift vector. -/
theorem read_lb (c : Dev nD) (t : Fin cfg0.N) (d : Fin 1024) :
    (iblk m c 2 t : S1x1024.Idx → EReal) (ix2 (0 : Fin 1) d) = m ((c : Thread nD τ).loc main_arg2) (ix1 d) := by
  obtain ⟨-, -, -, -, e0, e1, -⟩ := index_facts t
  show (V m c main_v2 : S1x1024.Idx → EReal) (((cfg0.win 2).blk t).view.emb (ix2 (0 : Fin 1) d)) = _
  rw [entry_lb]
  refine shapeCast_apply _ shapeCasts_S1024_S1x1024 _ (ix1 d) ?_
  rw [Shape.rowMajor_val_one, Shape.rowMajor_val_two]
  show d.val = (win0_2.index t (0 : Fin 2) * 1 + 1 * 0) * 1024 + (win0_2.index t (1 : Fin 2) * 1024 + 1 * d.val)
  rw [e0, e1]; omega

/-- Entry (d, o) of the matrix block at every point is entry (o, d) of the projection matrix. -/
theorem read_w (c : Dev nD) (t : Fin cfg0.N) (d : Fin 1024) (o : Fin 768) :
    (iblk m c 3 t : S1024x768.Idx → EReal) (ix2 d o) = m ((c : Thread nD τ).loc main_arg3) (ix2 o d) := by
  obtain ⟨-, -, -, -, -, -, e0, e1, -⟩ := index_facts t
  show (V m c main_v5 : S1024x768.Idx → EReal) (((cfg0.win 3).blk t).view.emb (ix2 d o)) = _
  rw [entry_wT]
  show transpose S1024x768 [1, 0] (m ((c : Thread nD τ).loc main_arg3) : S768x1024.Idx → Ideal .f32)
    transposes_S768x1024_S1024x768_1_0 (((cfg0.win 3).blk t).view.emb (ix2 d o)) = _
  refine transpose_apply [1, 0] _ transposes_S768x1024_S1024x768_1_0 _ (ix2 o d) fun b => ?_
  match b with
  | ⟨0, _⟩ => show d.val = win0_3.index t (0 : Fin 2) * 1024 + 1 * d.val; rw [e0]; omega
  | ⟨1, _⟩ => show o.val = win0_3.index t (1 : Fin 2) * 768 + 1 * o.val; rw [e1]; omega

/-- The bias block at every point is the bias vector. -/
theorem read_bias (c : Dev nD) (t : Fin cfg0.N) (o : Fin 768) :
    (iblk m c 4 t : S1x768.Idx → EReal) (ix2 (0 : Fin 1) o) = m ((c : Thread nD τ).loc main_arg4) (ix1 o) := by
  obtain ⟨-, -, -, -, -, -, -, -, e0, e1, -⟩ := index_facts t
  show (V m c main_v3 : S1x768.Idx → EReal) (((cfg0.win 4).blk t).view.emb (ix2 (0 : Fin 1) o)) = _
  rw [entry_bias]
  refine shapeCast_apply _ shapeCasts_S768_S1x768 _ (ix1 o) ?_
  rw [Shape.rowMajor_val_one, Shape.rowMajor_val_two]
  show o.val = (win0_4.index t (0 : Fin 2) * 1 + 1 * 0) * 768 + (win0_4.index t (1 : Fin 2) * 768 + 1 * o.val)
  rw [e0, e1]; omega

/-! ## The result array -/

/-- 32 x 1024 x 768 numbers are 32768 x 768 numbers. -/
theorem flatten_tokens : S32x1024x768'.ShapeCasts S32768x768 := by decide

/-- The projected tokens of the arguments, row (b, n) at flat row 1024 b + n. -/
def result (c : Dev nD) : S32768x768.Idx → EReal :=
  shapeCast S32768x768 (tokens (m ((c : Thread nD τ).loc main_arg0)) (m ((c : Thread nD τ).loc main_arg1))
    (m ((c : Thread nD τ).loc main_arg2)) (m ((c : Thread nD τ).loc main_arg3)) (m ((c : Thread nD τ).loc main_arg4))) flatten_tokens

/-- What point t writes back is block t of the result: rows 1024 t .. 1024 t + 1023. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero zero_offsets]
  simp only [View.ld_unit_zero (S := S1024x1024) zero_offsets, View.ld_unit_zero (S := S1x1024) zero_offsets,
    View.ld_unit_zero (S := S1024x768) zero_offsets, View.ld_unit_zero (S := S1x768) zero_offsets]
  obtain ⟨-, -, -, -, -, -, -, -, -, -, e0, e1⟩ := index_facts t
  funext j
  obtain ⟨p, q, rfl⟩ : ∃ (p : Fin 1024) (q : Fin 768), j = ix2 p q := ⟨j 0, j 1, eq_ix2 j⟩
  show k0_pay1 (F := Ideal) (iblk m c 0 t) (iblk m c 1 t) (iblk m c 2 t) (iblk m c 3 t) (iblk m c 4 t) (ix2 p q)
    = result m c (((cfg0.win 5).blk t).view.emb (ix2 p q))
  refine (Body.payload_apply (iblk m c 0 t) (iblk m c 1 t) (iblk m c 2 t) (iblk m c 3 t) (iblk m c 4 t) p q).trans ?_
  refine Eq.trans ?_ (shapeCast_apply _ flatten_tokens _ (ix3 (batchOf t) p q) ?_).symm
  · show projected (fun d => (iblk m c 0 t : S1024x1024.Idx → EReal) (ix2 p d))
        (fun d => (iblk m c 1 t : S1x1024.Idx → EReal) (ix2 (0 : Fin 1) d))
        (fun d => (iblk m c 2 t : S1x1024.Idx → EReal) (ix2 (0 : Fin 1) d))
        (fun d => (iblk m c 3 t : S1024x768.Idx → EReal) (ix2 d q))
        ((iblk m c 4 t : S1x768.Idx → EReal) (ix2 (0 : Fin 1) q))
      = projected (fun d => m ((c : Thread nD τ).loc main_arg0) (ix3 (batchOf t) p d))
        (fun d => m ((c : Thread nD τ).loc main_arg1) (ix1 d)) (fun d => m ((c : Thread nD τ).loc main_arg2) (ix1 d))
        (fun d => m ((c : Thread nD τ).loc main_arg3) (ix2 q d)) (m ((c : Thread nD τ).loc main_arg4) (ix1 q))
    simp only [read_x, read_lw, read_lb, read_w, read_bias]
  · rw [Shape.rowMajor_val_three, Shape.rowMajor_val_two]
    show (t.val * 1024 + p.val) * 768 + q.val
      = (win0_5.index t (0 : Fin 2) * 1024 + 1 * p.val) * 768 + (win0_5.index t (1 : Fin 2) * 768 + 1 * q.val)
    rw [e0, e1]; omega

/-- An index of the result array is in point t's block iff each coordinate is in the block's range on its axis. -/
theorem mem_block (t : Fin cfg0.N) (i : S32768x768.Idx) :
    i ∈ ((cfg0.win 5).blk t).view.set
      ↔ ∀ a : Fin 2, win0_5.index t a * S1024x768.size a ≤ (i a).val ∧ (i a).val < win0_5.index t a * S1024x768.size a + S1024x768.size a := by
  show i ∈ ((View.whole main_v6).slice (win0_5.rect t)).set ↔ _
  rw [View.set_slice_whole, Rect.mem_set_unit]
  exact Iff.rfl

/-- Every row of the result is written by the point its batch entry names. -/
theorem covered (i : S32768x768.Idx) :
    ∃ t : Fin cfg0.N, (cfg0.win 5).flush t = true ∧ i ∈ ((cfg0.win 5).blk t).view.set := by
  have hi0 : (i 0).val < 32768 := (i 0).isLt
  have hi1 : (i 1).val < 768 := (i 1).isLt
  have ht : (i 0).val / 1024 < cfg0.N := lt_of_lt_of_eq (by omega : (i 0).val / 1024 < 32) N_0.symm
  obtain ⟨-, -, -, -, -, -, -, -, -, -, e0, e1⟩ := index_facts ⟨(i 0).val / 1024, ht⟩
  refine ⟨⟨(i 0).val / 1024, ht⟩, flush0_5 _, ?_⟩
  rw [mem_block]
  intro a
  match a with
  | ⟨0, _⟩ =>
    show win0_5.index ⟨(i 0).val / 1024, ht⟩ (0 : Fin 2) * 1024 ≤ (i 0).val
      ∧ (i 0).val < win0_5.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_5.index ⟨(i 0).val / 1024, ht⟩ (1 : Fin 2) * 768 ≤ (i 1).val
      ∧ (i 1).val < win0_5.index ⟨(i 0).val / 1024, ht⟩ (1 : Fin 2) * 768 + 768
    rw [e1]; omega

/-- The result array after the run. -/
theorem result_eq (c : Dev nD) : (dats m 0 c).arrAt 5 cfg0.N = result m c :=
  (dats m 0 c).arrAt_eq_of_cover 5 (result m c) (fun t _ => flushed_eq m c t) covered

end PatchProj.Kernel

end
-- ==== Proof.Relayout.lean ====
/-
  The closing relayout both programs apply to the projected tokens, and reshaping in two steps.

  The 32 x 1024 x 768 numbers are regrouped as 32 x 32 x 32 x 16 x 16 x 3 (image, patch row, patch column, pixel row,
  pixel column, channel), the axes are permuted to (image, channel, patch row, pixel row, patch column, pixel column),
  and the result is regrouped as 32 x 3 x 512 x 512. Regrouping keeps the row-major position of every number, so
  regrouping through an intermediate grouping is regrouping directly.
-/
import Idealize.ShloMosaic.PureOps.Ideal.Laws
import Idealize.ShloMosaic.Lib.Pipeline.Value

noncomputable section

namespace PatchProj

open Idealize.ShloMosaic

/-- A reshape of a reshape is the reshape to the last shape. -/
theorem shapeCast_trans {s t u : Shape} {α : Type} (v : s.Idx → α) (h : s.ShapeCasts t) (h' : t.ShapeCasts u)
    (h'' : s.ShapeCasts u) : shapeCast u (shapeCast t v h) h' = shapeCast u v h'' :=
  funext fun j => congrArg v (by
    show Shape.reshapeEquiv _ (Shape.reshapeEquiv _ j) = Shape.reshapeEquiv _ j
    rw [Shape.reshapeEquiv_reshapeEquiv])

/-- The projected tokens as images: regroup, permute the axes, regroup. -/
def patches (y : (⟨3, ![32, 1024, 768]⟩ : Shape).Idx → EReal)
    (h1 : (⟨3, ![32, 1024, 768]⟩ : Shape).ShapeCasts ⟨6, ![32, 32, 32, 16, 16, 3]⟩)
    (h2 : (⟨6, ![32, 32, 32, 16, 16, 3]⟩ : Shape).Transposes [0, 5, 1, 3, 2, 4] ⟨6, ![32, 3, 32, 16, 32, 16]⟩)
    (h3 : (⟨6, ![32, 3, 32, 16, 32, 16]⟩ : Shape).ShapeCasts ⟨4, ![32, 3, 512, 512]⟩) :
    (⟨4, ![32, 3, 512, 512]⟩ : Shape).Idx → EReal :=
  shapeCast ⟨4, ![32, 3, 512, 512]⟩ (transpose ⟨6, ![32, 3, 32, 16, 32, 16]⟩ [0, 5, 1, 3, 2, 4]
    (shapeCast ⟨6, ![32, 32, 32, 16, 16, 3]⟩ y h1) h2) h3

end PatchProj

end
-- ==== Proof.KernelValue.lean ====
/-
  The kernel program's run ends with its result at the projected tokens, regrouped as images.

  After the call, the host regroups the 32768 x 768 result as 32 x 32 x 32 x 16 x 16 x 3, permutes the axes and
  regroups again. The call's result is the projected tokens flattened to rows, so the first regrouping is the direct
  regrouping of the projected tokens.
-/
import proofs.«116258_j15659450761472_1_alg».proof.Proof.KernelBlocks
import proofs.«116258_j15659450761472_1_alg».proof.Proof.Relayout

set_option maxRecDepth 16384

noncomputable section

namespace PatchProj.Kernel

open Cert.KernelIdeal Cert.KernelIdeal.Gen Idealize.ShloMosaic Idealize.ShloMosaic.TcCoe Idealize.ShloMosaic.ValueIdx
open Idealize.SL.Sem Idealize.ShloMosaic.StableHlo PatchProj

variable (m : (ℓ : Loc nD τ sig) → Buf (Elt Ideal) ℓ) (ρ : Dev nD → PrngReg)

/-- 32 x 1024 x 768 numbers are 32 x 32 x 32 x 16 x 16 x 3 numbers. -/
theorem regroup_tokens : S32x1024x768'.ShapeCasts S32x32x32x16x16x3 := by decide

/-- The images the kernel program returns, as a function of its arguments. -/
def images (c : Dev nD) : S32x3x512x512.Idx → EReal :=
  patches (tokens (m ((c : Thread nD τ).loc main_arg0)) (m ((c : Thread nD τ).loc main_arg1))
    (m ((c : Thread nD τ).loc main_arg2)) (m ((c : Thread nD τ).loc main_arg3)) (m ((c : Thread nD τ).loc main_arg4)))
    regroup_tokens transposes_S32x32x32x16x16x3_S32x3x32x16x32x16_0_5_1_3_2_4 shapeCasts_S32x3x32x16x32x16_S32x3x512x512

/-- The host operations after the call, applied to the call's result. -/
theorem tail_eq (c : Dev nD) :
    Pipeline.afterTail₀ cfgs (dats m) 0 (V0 m) [hostOps1] c main_v9 = images m c := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v6)
      = result m c :=
    (Pipeline.withArrays_arr spec0 launch0.win.arr_inj c _ _ 5).trans (result_eq m c)
  rw [hw]
  show shapeCast S32x3x512x512 (transpose S32x3x32x16x32x16 [0, 5, 1, 3, 2, 4]
      (shapeCast S32x32x32x16x16x3 (result m c) shapeCasts_S32768x768_S32x32x32x16x16x3)
      transposes_S32x32x32x16x16x3_S32x3x32x16x32x16_0_5_1_3_2_4) shapeCasts_S32x3x32x16x32x16_S32x3x512x512 = _
  unfold result images patches
  rw [shapeCast_trans _ flatten_tokens shapeCasts_S32768x768_S32x32x32x16x16x3 regroup_tokens]

/-- Every weakly fair execution of the kernel program terminates with its result at the images of its arguments and
    its arguments unchanged. -/
theorem run : θ_run defs (onTc (τ := τ) (main (F := Ideal))) ⟨m, fun _ => 0, ρ⟩ fun r => ∀ c : Dev nD,
      r.2.mem ((c.tc : Thread nD τ).loc main_v9) = images m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end PatchProj.Kernel

end
-- ==== Proof.RefTokens.lean ====
/-
  The reference program, read one stage at a time, computes the projected tokens.

  Its host operations up to the bias addition are, at output index (b, n, o): the row sum of token (b, n) over the row
  length (the mean), the row sum of the squared deviations over the row length (the variance), the reciprocal square
  root of the variance plus the offset, the weighted and shifted normalised coordinate, that coordinate times
  1 / (1 + exp (-h)) of itself (the logistic function spelt out), the contraction with row o of the matrix, and the bias.
-/
import proofs.«116258_j15659450761472_1_alg».proof.Proof.Gen.ReferenceIdeal.Read
import proofs.«116258_j15659450761472_1_alg».proof.Proof.Spec

noncomputable section

open scoped BigOperators

namespace PatchProj.Ref

open Cert.ReferenceIdeal Cert.ReferenceIdeal.Gen Cert.ReferenceIdeal.Read Idealize.ShloMosaic Idealize.ShloMosaic.ValueIdx PatchProj

/-- Multi-indices of rank 1, 2, 3 are equal when their coordinates are equal as naturals. -/
theorem idx1_ext {d : Fin 1 → Nat} (u v : (⟨1, d⟩ : Shape).Idx) (h0 : (u 0).val = (v 0).val) : u = v :=
  funext fun a => Fin.ext (match a with | ⟨0, _⟩ => h0)
theorem idx2_ext {d : Fin 2 → Nat} (u v : (⟨2, d⟩ : Shape).Idx) (h0 : (u 0).val = (v 0).val) (h1 : (u 1).val = (v 1).val) : u = v :=
  funext fun a => Fin.ext (match a with | ⟨0, _⟩ => h0 | ⟨1, _⟩ => h1)
theorem idx3_ext {d : Fin 3 → Nat} (u v : (⟨3, d⟩ : Shape).Idx) (h0 : (u 0).val = (v 0).val) (h1 : (u 1).val = (v 1).val)
    (h2 : (u 2).val = (v 2).val) : u = v :=
  funext fun a => Fin.ext (match a with | ⟨0, _⟩ => h0 | ⟨1, _⟩ => h1 | ⟨2, _⟩ => h2)

variable (x0 : (⟨S32x1024x1024, .f32⟩ : BufTy).Contents (Elt Ideal)) (x1 x2 : (⟨S1024, .f32⟩ : BufTy).Contents (Elt Ideal))
  (x3 : (⟨S768x1024, .f32⟩ : BufTy).Contents (Elt Ideal)) (x4 : (⟨S768, .f32⟩ : BufTy).Contents (Elt Ideal))

/-- Token (b, n) of the input as a row. -/
abbrev tok (b : Fin 32) (n : Fin 1024) : Fin 1024 → EReal := fun d => x0 (ix3 b n d)

/-- The quotient of the row sum by the row length is the row's mean. -/
theorem mean_eq (b : Fin 32) (n : Fin 1024) (z : Fin 1) :
    val_main_v3 (F := Ideal) x0 (ix3 b n z) = rowMean (tok x0 b n) := by
  rw [val_main_v3_apply, val_main_v1_apply, val_main_v0_apply, val_main_v2_apply, val_main_cst_0_apply, val_main_cst_apply]
  simp only [Ideal.hostDivf_def, Ideal.ofBits_def, Ideal.ofBits_zero_f32, zero_add]
  unfold rowMean
  exact congrArg (Ideal.div · _) (Finset.sum_congr rfl fun k _ => congrArg x0 (idx3_ext _ _ rfl rfl rfl))

/-- The deviation from the mean, as the reference computes it the first time (for the variance). -/
theorem centred_eq (b : Fin 32) (n : Fin 1024) (d : Fin 1024) :
    val_main_v5 (F := Ideal) x0 (ix3 b n d) = x0 (ix3 b n d) - rowMean (tok x0 b n) := by
  rw [val_main_v5_apply, val_main_v4_apply,
    show idx_main_v4 (ix3 b n d) = ix3 b n (0 : Fin 1) from idx3_ext _ _ rfl rfl rfl, mean_eq]
  rfl

/-- And the second time (for the normalised row). -/
theorem centred_eq' (b : Fin 32) (n : Fin 1024) (d : Fin 1024) :
    val_main_v12 (F := Ideal) x0 (ix3 b n d) = x0 (ix3 b n d) - rowMean (tok x0 b n) := by
  rw [val_main_v12_apply, val_main_v11_apply,
    show idx_main_v11 (ix3 b n d) = ix3 b n (0 : Fin 1) from idx3_ext _ _ rfl rfl rfl, mean_eq]
  rfl

/-- The quotient of the row sum of squared deviations by the row length is the row's variance. -/
theorem var_eq (b : Fin 32) (n : Fin 1024) (z : Fin 1) :
    val_main_v10 (F := Ideal) x0 (ix3 b n z) = rowVar (tok x0 b n) := by
  rw [val_main_v10_apply, val_main_v8_apply, val_main_v7_apply, val_main_v9_apply, val_main_cst_2_apply, val_main_cst_1_apply]
  simp only [Ideal.hostDivf_def, Ideal.ofBits_def, Ideal.ofBits_zero_f32, zero_add]
  unfold rowVar
  refine congrArg (Ideal.div · _) (Finset.sum_congr rfl fun k _ => ?_)
  rw [show idx_main_v7 (idx_main_v8 (ix3 b n z)) k = ix3 b n k from idx3_ext _ _ rfl rfl rfl, val_main_v6_apply, centred_eq]
  rfl

/-- The reciprocal square root of the variance plus the offset. -/
theorem rstd_eq (b : Fin 32) (n : Fin 1024) (z : Fin 1) :
    val_main_v15 (F := Ideal) x0 (ix3 b n z) = Ideal.rsqrt (rowVar (tok x0 b n) + varEps) := by
  rw [val_main_v15_apply, val_main_v14_apply, var_eq, val_main_v13_apply, val_main_cst_3_apply]
  rfl

/-- The normalised coordinate, weighted and shifted. -/
theorem affine_eq (b : Fin 32) (n : Fin 1024) (d : Fin 1024) :
    val_main_v23 (F := Ideal) x0 x1 x2 (ix3 b n d)
      = affine (tok x0 b n) (fun d => x1 (ix1 d)) (fun d => x2 (ix1 d)) d := by
  rw [val_main_v23_apply, val_main_v20_apply, val_main_v17_apply, centred_eq', val_main_v16_apply,
    show idx_main_v16 (ix3 b n d) = ix3 b n (0 : Fin 1) from idx3_ext _ _ rfl rfl rfl, rstd_eq,
    val_main_v19_apply, val_main_v18_apply, val_main_v22_apply, val_main_v21_apply,
    show idx_main_v18 (idx_main_v19 (ix3 b n d)) = ix1 d from idx1_ext _ _ rfl,
    show idx_main_v21 (idx_main_v22 (ix3 b n d)) = ix1 d from idx1_ext _ _ rfl]
  rfl

/-- The gated coordinate: the reference spells the logistic function out. -/
theorem gated_eq (b : Fin 32) (n : Fin 1024) (d : Fin 1024) :
    val_main_v30 (F := Ideal) x0 x1 x2 (ix3 b n d)
      = gated (tok x0 b n) (fun d => x1 (ix1 d)) (fun d => x2 (ix1 d)) d := by
  rw [val_main_v30_apply, val_main_v29_apply, val_main_v28_apply, val_main_cst_5_apply, val_main_v27_apply,
    val_main_v26_apply, val_main_cst_4_apply, val_main_v25_apply, val_main_v24_apply, affine_eq]
  simp only [Ideal.hostDivf_def, Ideal.ofBits_def, Ideal.hostUnary_exp_def, Ideal.hostNegf_def, Ideal.negf_def,
    Ideal.addf_def, Ideal.mulf_def]
  rw [logistic_spelt]
  rfl

/-- The reference's value before its closing relayout is the projected tokens. -/
theorem tokens_eq : val_main_v34 (F := Ideal) x0 x1 x2 x3 x4 = tokens x0 x1 x2 x3 x4 := by
  funext i
  obtain ⟨b, n, o, rfl⟩ : ∃ (b : Fin 32) (n : Fin 1024) (o : Fin 768), i = ix3 b n o := ⟨i 0, i 1, i 2, eq_ix3 i⟩
  rw [val_main_v34_apply, val_main_v31_apply, val_main_v33_apply, val_main_v32_apply,
    show idx_main_v32 (idx_main_v33 (ix3 b n o)) = ix1 o from idx1_ext _ _ rfl]
  unfold tokens projected
  refine congrArg (· + _) (Finset.sum_congr rfl fun k _ => ?_)
  rw [show lidx_main_v31 (ix3 b n o) k = ix3 b n k from idx3_ext _ _ rfl rfl rfl,
    show ridx_main_v31 (ix3 b n o) k = ix2 o k from idx2_ext _ _ rfl rfl, gated_eq]

end PatchProj.Ref

end
-- ==== Proof.RefImages.lean ====
/-
  The reference program's result is the projected tokens regrouped as images: its last three host operations are
  the closing relayout applied to the value it has after the bias addition.
-/
import proofs.«116258_j15659450761472_1_alg».proof.Proof.RefTokens
import proofs.«116258_j15659450761472_1_alg».proof.Proof.Relayout

noncomputable section

namespace PatchProj.Ref

open Cert.ReferenceIdeal Cert.ReferenceIdeal.Gen Cert.ReferenceIdeal.Read Idealize.ShloMosaic Idealize.ShloMosaic.TcCoe
open Idealize.SL.Sem PatchProj

/-- The reference's result, as a function of its arguments. -/
theorem images_eq (m : (ℓ : Loc nD τ sig) → Buf (Elt Ideal) ℓ) (c : Dev nD) :
    Cert.ReferenceIdeal.Value.res_main_v37 m c
      = patches (tokens (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)))
          shapeCasts_S32x1024x768_S32x32x32x16x16x3 transposes_S32x32x32x16x16x3_S32x3x32x16x32x16_0_5_1_3_2_4
          shapeCasts_S32x3x32x16x32x16_S32x3x512x512 := by
  rw [val_main_v37_eq]
  unfold val_main_v37 val_main_v36 val_main_v35
  rw [tokens_eq]
  rfl

end PatchProj.Ref

end
-- ==== Proof.lean ====
/-
  A layer normalisation, a logistic gate and a linear projection of 32 x 1024 tokens of 1024 numbers, returned as
  32 images of 3 channels and 512 x 512 pixels: the kernel program and the reference program agree on the extended reals.

  Both compute, for token (b, n) and output coordinate o, the number
      sum over d of g(b, n, d) * W(o, d) + bias(o),   g = h * logistic h,
      h(b, n, d) = (x(b, n, d) - mean) * rsqrt (var + eps) * w(d) + s(d),
  with mean and var the mean and the variance of the token's 1024 numbers (sums divided by the float 1024), and both
  then regroup the 32 x 1024 x 768 numbers as images by the same relayout (Relayout.lean). The kernel works on the
  tokens flattened to 32768 rows, one batch entry per grid point (KernelBlocks.lean); its body is read at an index in
  KernelRow.lean, where the logistic function is one operation, the change of float format before the matrix product
  is the identity, and the product into a zero accumulator is the plain sum over d. The reference spells the logistic
  function as 1 / (1 + exp (-h)) and contracts with the untransposed matrix (RefTokens.lean). Every float literal is
  the same bit pattern on both sides, the operations are applied in the same order, and only the indexing of the sums
  differs, so no finiteness of the inputs is used.

  The two word-level and idealised kernel frames are the generated ones; the reference's frame is its run with the
  result dropped; the idealisation rewrote nothing, so the preservation claim is trivial.
-/
import proofs.«116258_j15659450761472_1_alg».proof.Defs
import proofs.«116258_j15659450761472_1_alg».proof.Proof.Gen.Kernel
import proofs.«116258_j15659450761472_1_alg».proof.Proof.Gen.Kernel.Skeleton
import proofs.«116258_j15659450761472_1_alg».proof.Proof.Gen.Kernel.Launch
import proofs.«116258_j15659450761472_1_alg».proof.Proof.Gen.Kernel.Points
import proofs.«116258_j15659450761472_1_alg».proof.Proof.Gen.Kernel.Frame
import proofs.«116258_j15659450761472_1_alg».proof.Proof.Gen.KernelIdeal
import proofs.«116258_j15659450761472_1_alg».proof.Proof.Gen.KernelIdeal.Skeleton
import proofs.«116258_j15659450761472_1_alg».proof.Proof.Gen.KernelIdeal.Launch
import proofs.«116258_j15659450761472_1_alg».proof.Proof.Gen.KernelIdeal.Points
import proofs.«116258_j15659450761472_1_alg».proof.Proof.Gen.KernelIdeal.Frame
import proofs.«116258_j15659450761472_1_alg».proof.Proof.Gen.ReferenceIdeal
import proofs.«116258_j15659450761472_1_alg».proof.Proof.Gen.ReferenceIdeal.Run
import proofs.«116258_j15659450761472_1_alg».proof.Proof.Gen.ReferenceIdeal.Read
import proofs.«116258_j15659450761472_1_alg».proof.Proof.Gen.Pre_finite_inputs
import proofs.«116258_j15659450761472_1_alg».proof.Proof.KernelValue
import proofs.«116258_j15659450761472_1_alg».proof.Proof.RefImages
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealised kernel program. -/
theorem frame_kernelIdeal : Cert.frame_KernelIdeal := fun m ρ _ => Cert.KernelIdeal.Gen.frame m ρ

/-- The reference program runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From arguments that agree, both programs end with the images of the projected tokens. -/
theorem algebraic : Cert.algebraic_KernelIdeal_ReferenceIdeal := by
  intro m ρ m' ρ' _ hagree
  refine ⟨fun c => PatchProj.Kernel.images m c, PatchProj.Kernel.run m ρ, ?_⟩
  refine (θ_run Cert.ReferenceIdeal.defs _ _).mono (fun _ h c => ⟨(h c).1.trans ?_, (h c).2⟩)
    (Cert.ReferenceIdeal.Value.run (F := Ideal) m' ρ')
  rw [PatchProj.Ref.images_eq, (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
